-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v73)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v73) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v112) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 99
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S100000, .f32⟩
  | .hbm, ⟨15, _⟩ => ⟨S_, .i32⟩
  | .hbm, ⟨16, _⟩ => ⟨S1700000, .i32⟩
  | .hbm, ⟨17, _⟩ => ⟨S1700000, .i1⟩
  | .hbm, ⟨18, _⟩ => ⟨S_, .i32⟩
  | .hbm, ⟨19, _⟩ => ⟨S1700000, .i32⟩
  | .hbm, ⟨20, _⟩ => ⟨S1700000, .i32⟩
  | .hbm, ⟨21, _⟩ => ⟨S1700000, .i32⟩
  | .hbm, ⟨22, _⟩ => ⟨S1700000x1, .i32⟩
  | .hbm, ⟨23, _⟩ => ⟨S_, .f32⟩
  | .hbm, ⟨24, _⟩ => ⟨S1700000, .f32⟩
  | .hbm, ⟨25, _⟩ => ⟨S100000, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S100000x64, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S_, .i32⟩
  | .hbm, ⟨65, _⟩ => ⟨S1700000, .i32⟩
  | .hbm, ⟨66, _⟩ => ⟨S1700000, .i1⟩
  | .hbm, ⟨67, _⟩ => ⟨S_, .i32⟩
  | .hbm, ⟨68, _⟩ => ⟨S1700000, .i32⟩
  | .hbm, ⟨69, _⟩ => ⟨S1700000, .i32⟩
  | .hbm, ⟨70, _⟩ => ⟨S1700000, .i32⟩
  | .hbm, ⟨71, _⟩ => ⟨S1700000x1, .i32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .i32⟩
  | .hbm, ⟨76, _⟩ => ⟨S1700000, .i32⟩
  | .hbm, ⟨77, _⟩ => ⟨S1700000, .i1⟩
  | .hbm, ⟨78, _⟩ => ⟨S_, .i32⟩
  | .hbm, ⟨79, _⟩ => ⟨S1700000, .i32⟩
  | .hbm, ⟨80, _⟩ => ⟨S1700000, .i32⟩
  | .hbm, ⟨81, _⟩ => ⟨S1700000, .i32⟩
  | .hbm, ⟨82, _⟩ => ⟨S1700000x1, .i32⟩
  | .hbm, ⟨83, _⟩ => ⟨S1700000x64, .f32⟩
  | .hbm, ⟨84, _⟩ => ⟨S1700000x1, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S100000x64, .f32⟩
  | .hbm, ⟨98, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S64, .f32⟩
  | .local _ .vmem, ⟨18, _⟩ => ⟨S10000x64, .f32⟩
  | .local _ .vmem, ⟨19, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_c_3 : Ref sig .tc := ⟨.hbm, 30, rfl⟩
abbrev main_v19 : Ref sig .tc := ⟨.hbm, 31, rfl⟩
abbrev main_v20 : Ref sig .tc := ⟨.hbm, 32, rfl⟩
abbrev main_c_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_5 : Ref sig .tc := ⟨.hbm, 39, rfl⟩
abbrev main_v26 : Ref sig .tc := ⟨.hbm, 40, rfl⟩
abbrev main_v27 : Ref sig .tc := ⟨.hbm, 41, rfl⟩
abbrev main_c_6 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_c_12 : Ref sig .tc := ⟨.hbm, 75, rfl⟩
abbrev main_v55 : Ref sig .tc := ⟨.hbm, 76, rfl⟩
abbrev main_v56 : Ref sig .tc := ⟨.hbm, 77, rfl⟩
abbrev main_c_13 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_14 : Ref sig .tc := ⟨.hbm, 87, rfl⟩
abbrev main_v65 : Ref sig .tc := ⟨.hbm, 88, rfl⟩
abbrev main_c_15 : Ref sig .tc := ⟨.hbm, 89, rfl⟩
abbrev main_v66 : Ref sig .tc := ⟨.hbm, 90, rfl⟩
abbrev main_v67 : Ref sig .tc := ⟨.hbm, 91, rfl⟩
abbrev main_c_16 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64.size a ≤ S64.size a
  hwx1_1 : ∀ i : grid1.Coords, EltTy.bits .f32 = 32 ∨ (Rect.block (s := S64) S64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64.size a ≤ S64.size a
  hwx3_1 : ∀ i : grid3.Coords, EltTy.bits .f32 = 32 ∨ (Rect.block (s := S64) S64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v34) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v52) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v53) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v53) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v54) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v72) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v73) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 149
  | .vmem => 0
  | .smem => 0
  | _ => 0

abbrev hbmTy0_0 (i : Nat) : BufTy := match i % 128 with
  | 0 => ⟨S100000x64, .f32⟩
  | 1 => ⟨S2x1600000, .i32⟩
  | 2 => ⟨S64x64, .f32⟩
  | 3 => ⟨S64, .f32⟩
  | 4 => ⟨S64x64, .f32⟩
  | 5 => ⟨S64, .f32⟩
  | 6 => ⟨S100000x64, .f32⟩
  | 7 => ⟨S100000, .i32⟩
  | 8 => ⟨S1x1600000, .i32⟩
  | 9 => ⟨S1600000, .i32⟩
  | 10 => ⟨S1700000, .i32⟩
  | 11 => ⟨S1x1600000, .i32⟩
  | 12 => ⟨S1600000, .i32⟩
  | 13 => ⟨S1700000, .i32⟩
  | 14 => ⟨S_, .f32⟩
  | 15 => ⟨S100000, .f32⟩
  | 16 => ⟨S_, .i32⟩
  | 17 => ⟨S1700000, .i32⟩
  | 18 => ⟨S1700000, .i1⟩
  | 19 => ⟨S_, .i32⟩
  | 20 => ⟨S1700000, .i32⟩
  | 21 => ⟨S1700000, .i32⟩
  | 22 => ⟨S1700000, .i32⟩
  | 23 => ⟨S1700000x1, .i32⟩
  | 24 => ⟨S_, .f32⟩
  | 25 => ⟨S1700000, .f32⟩
  | 26 => ⟨S100000, .f32⟩
  | 27 => ⟨S_, .f32⟩
  | 28 => ⟨S100000, .f32⟩
  | 29 => ⟨S100000, .f32⟩
  | 30 => ⟨S100000, .f32⟩
  | 31 => ⟨S_, .i32⟩
  | 32 => ⟨S1700000, .i32⟩
  | 33 => ⟨S1700000, .i1⟩
  | 34 => ⟨S_, .i32⟩
  | 35 => ⟨S1700000, .i32⟩
  | 36 => ⟨S1700000, .i32⟩
  | 37 => ⟨S1700000, .i32⟩
  | 38 => ⟨S1700000x1, .i32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S_, .i32⟩
  | 65 => ⟨S1700000, .i32⟩
  | 66 => ⟨S1700000, .i1⟩
  | 67 => ⟨S_, .i32⟩
  | 68 => ⟨S1700000, .i32⟩
  | 69 => ⟨S1700000, .i32⟩
  | 70 => ⟨S1700000, .i32⟩
  | 71 => ⟨S1700000x1, .i32⟩
  | 72 => ⟨S100000x64, .f32⟩
  | 73 => ⟨S1x64, .f32⟩
  | 74 => ⟨S100000x64, .f32⟩
  | 75 => ⟨S100000x64, .f32⟩
  | 76 => ⟨S_, .f32⟩
  | 77 => ⟨S100000x64, .f32⟩
  | 78 => ⟨S100000x64, .f32⟩
  | 79 => ⟨S100000x64, .f32⟩
  | 80 => ⟨S100000, .i32⟩
  | 81 => ⟨S1x1600000, .i32⟩
  | 82 => ⟨S1600000, .i32⟩
  | 83 => ⟨S1700000, .i32⟩
  | 84 => ⟨S1x1600000, .i32⟩
  | 85 => ⟨S1600000, .i32⟩
  | 86 => ⟨S1700000, .i32⟩
  | 87 => ⟨S_, .f32⟩
  | 88 => ⟨S100000, .f32⟩
  | 89 => ⟨S_, .i32⟩
  | 90 => ⟨S1700000, .i32⟩
  | 91 => ⟨S1700000, .i1⟩
  | 92 => ⟨S_, .i32⟩
  | 93 => ⟨S1700000, .i32⟩
  | 94 => ⟨S1700000, .i32⟩
  | 95 => ⟨S1700000, .i32⟩
  | 96 => ⟨S1700000x1, .i32⟩
  | 97 => ⟨S_, .f32⟩
  | 98 => ⟨S1700000, .f32⟩
  | 99 => ⟨S100000, .f32⟩
  | 100 => ⟨S_, .f32⟩
  | 101 => ⟨S100000, .f32⟩
  | 102 => ⟨S100000, .f32⟩
  | 103 => ⟨S100000, .f32⟩
  | 104 => ⟨S_, .i32⟩
  | 105 => ⟨S1700000, .i32⟩
  | 106 => ⟨S1700000, .i1⟩
  | 107 => ⟨S_, .i32⟩
  | 108 => ⟨S1700000, .i32⟩
  | 109 => ⟨S1700000, .i32⟩
  | 110 => ⟨S1700000, .i32⟩
  | 111 => ⟨S1700000x1, .i32⟩
  | 112 => ⟨S1700000, .f32⟩
  | 113 => ⟨S_, .i32⟩
  | 114 => ⟨S1700000, .i32⟩
  | 115 => ⟨S1700000, .i1⟩
  | 116 => ⟨S_, .i32⟩
  | 117 => ⟨S1700000, .i32⟩
  | 118 => ⟨S1700000, .i32⟩
  | 119 => ⟨S1700000, .i32⟩
  | 120 => ⟨S1700000x1, .i32⟩
  | 121 => ⟨S1700000, .f32⟩
  | 122 => ⟨S1700000, .f32⟩
  | 123 => ⟨S_, .i32⟩
  | 124 => ⟨S1700000, .i32⟩
  | 125 => ⟨S1700000, .i1⟩
  | 126 => ⟨S_, .i32⟩
  | 127 => ⟨S1700000, .i32⟩
  | _ => ⟨S100000x64, .f32⟩

abbrev hbmTy0_1 (i : Nat) : BufTy := match i % 128 with
  | 0 => ⟨S1700000, .i32⟩
  | 1 => ⟨S1700000, .i32⟩
  | 2 => ⟨S1700000x1, .i32⟩
  | 3 => ⟨S1700000x64, .f32⟩
  | 4 => ⟨S1700000x1, .f32⟩
  | 5 => ⟨S1700000x64, .f32⟩
  | 6 => ⟨S1700000x64, .f32⟩
  | 7 => ⟨S_, .f32⟩
  | 8 => ⟨S100000x64, .f32⟩
  | 9 => ⟨S_, .i32⟩
  | 10 => ⟨S1700000, .i32⟩
  | 11 => ⟨S1700000, .i1⟩
  | 12 => ⟨S_, .i32⟩
  | 13 => ⟨S1700000, .i32⟩
  | 14 => ⟨S1700000, .i32⟩
  | 15 => ⟨S1700000, .i32⟩
  | 16 => ⟨S1700000x1, .i32⟩
  | 17 => ⟨S100000x64, .f32⟩
  | 18 => ⟨S1x64, .f32⟩
  | 19 => ⟨S100000x64, .f32⟩
  | 20 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_3 : Ref sig .tc := ⟨.hbm, 31, rfl⟩
abbrev main_v20 : Ref sig .tc := ⟨.hbm, 32, rfl⟩
abbrev main_v21 : Ref sig .tc := ⟨.hbm, 33, rfl⟩
abbrev main_c_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_5 : Ref sig .tc := ⟨.hbm, 40, rfl⟩
abbrev main_v27 : Ref sig .tc := ⟨.hbm, 41, rfl⟩
abbrev main_v28 : Ref sig .tc := ⟨.hbm, 42, rfl⟩
abbrev main_c_6 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_7 : Ref sig .tc := ⟨.hbm, 50, rfl⟩
abbrev main_v35 : Ref sig .tc := ⟨.hbm, 51, rfl⟩
abbrev main_v36 : Ref sig .tc := ⟨.hbm, 52, rfl⟩
abbrev main_c_8 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_c_10 : Ref sig .tc := ⟨.hbm, 64, rfl⟩
abbrev main_v46 : Ref sig .tc := ⟨.hbm, 65, rfl⟩
abbrev main_v47 : Ref sig .tc := ⟨.hbm, 66, rfl⟩
abbrev main_c_11 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_call0_cst : Ref sig .tc := ⟨.hbm, 76, rfl⟩
abbrev main_call0_v0 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_cst_12 : Ref sig .tc := ⟨.hbm, 87, rfl⟩
abbrev main_v65 : Ref sig .tc := ⟨.hbm, 88, rfl⟩
abbrev main_c_13 : Ref sig .tc := ⟨.hbm, 89, rfl⟩
abbrev main_v66 : Ref sig .tc := ⟨.hbm, 90, rfl⟩
abbrev main_v67 : Ref sig .tc := ⟨.hbm, 91, rfl⟩
abbrev main_c_14 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_cst_15 : Ref sig .tc := ⟨.hbm, 97, rfl⟩
abbrev main_v72 : Ref sig .tc := ⟨.hbm, 98, rfl⟩
abbrev main_v73 : Ref sig .tc := ⟨.hbm, 99, rfl⟩
abbrev main_cst_16 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_c_17 : Ref sig .tc := ⟨.hbm, 104, rfl⟩
abbrev main_v77 : Ref sig .tc := ⟨.hbm, 105, rfl⟩
abbrev main_v78 : Ref sig .tc := ⟨.hbm, 106, rfl⟩
abbrev main_c_18 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_v82 : Ref sig .tc := ⟨.hbm, 111, rfl⟩
abbrev main_v83 : Ref sig .tc := ⟨.hbm, 112, rfl⟩
abbrev main_c_19 : Ref sig .tc := ⟨.hbm, 113, rfl⟩
abbrev main_v84 : Ref sig .tc := ⟨.hbm, 114, rfl⟩
abbrev main_v85 : Ref sig .tc := ⟨.hbm, 115, rfl⟩
abbrev main_c_20 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩
abbrev main_v91 : Ref sig .tc := ⟨.hbm, 122, rfl⟩
abbrev main_c_21 : Ref sig .tc := ⟨.hbm, 123, rfl⟩
abbrev main_v92 : Ref sig .tc := ⟨.hbm, 124, rfl⟩
abbrev main_v93 : Ref sig .tc := ⟨.hbm, 125, rfl⟩
abbrev main_c_22 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_23 : Ref sig .tc := ⟨.hbm, 135, rfl⟩
abbrev main_v102 : Ref sig .tc := ⟨.hbm, 136, rfl⟩
abbrev main_c_24 : Ref sig .tc := ⟨.hbm, 137, rfl⟩
abbrev main_v103 : Ref sig .tc := ⟨.hbm, 138, rfl⟩
abbrev main_v104 : Ref sig .tc := ⟨.hbm, 139, rfl⟩
abbrev main_c_25 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S100000 : S_.BroadcastsInDim S100000 (![] : Fin 0 → Fin S100000.rank)
  bcast_S_S1700000 : S_.BroadcastsInDim S1700000 (![] : Fin 0 → Fin S1700000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.Lin0.lean ====
/-
  The linear layer's region (the first matrix product): what its output array holds when the region ends.

  Each grid point t multiplies a block of 10000 rows of the input array by the whole 64×64 weight array and writes the
  10000×64 product back as block t of the output. Over the extended reals the change of float format before the
  product is the identity and the product into a zero accumulator is the plain sum over the contracted axis, so entry
  (r, j) of block t is ∑ₖ x(10000·t + r, k) · w(k, j): block t of the whole product of the two arrays. The ten blocks
  tile the 100000 rows, so the output array ends as the whole product, for any contents the region is entered with.
-/
import proofs.«163922_j9388798509588_1_alg».proof.Proof.Gen.KernelIdeal.Frame
import proofs.«163922_j9388798509588_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Lin0

open Cert.KernelIdeal Cert.KernelIdeal.Gen
open Idealize.ShloMosaic Idealize.ShloMosaic.TcCoe Idealize.SL.Sem
open Idealize.ShloMosaic.Pipeline (Dat Cfg Window)

/-! ## The block product at an index -/

/-- The left operand's index for output index i and contraction index q keeps i's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and its column is the contraction index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction index … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and its column is i's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row i₀ of the block, column k. -/
abbrev rowAt (i : S10000x64.Idx) (k : Fin 64) : S10000x64.Idx := fun a => match a with
  | ⟨0, _⟩ => ⟨(i 0).val, (i 0).isLt⟩
  | ⟨1, _⟩ => ⟨k.val, k.isLt⟩
/-- Row k of the weights, column i₁. -/
abbrev colAt (i : S10000x64.Idx) (k : Fin 64) : S64x64.Idx := fun a => match a with
  | ⟨0, _⟩ => ⟨k.val, k.isLt⟩
  | ⟨1, _⟩ => ⟨(i 1).val, (i 1).isLt⟩

/-- The body's stored value at an index: the sum over the 64 contracted positions of row × column. -/
theorem prod_apply (xb : Vec Ideal S10000x64 .f32) (wb : Vec Ideal S64x64 .f32) (j : S10000x64.Idx) :
    k0_pay1 (F := Ideal) xb wb j = ∑ k : Fin 64, xb (rowAt j k) * wb (colAt j k) := by
  unfold k0_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = rowAt j k := funext fun a => Fin.ext (by
    match a with
    | ⟨0, _⟩ => exact lhs_row _ _
    | ⟨1, _⟩ => exact (lhs_col _ _).trans hk)
  have er : dot_S10000x64_S64x64_S10000x64_1_0_0_1_n_n.rhsIdx j ((ValueIdx.contrEquiv1 dot_S10000x64_S64x64_S10000x64_1_0_0_1_n_n 64 rfl rfl).symm k) = colAt j k := funext fun a => Fin.ext (by
    match a with
    | ⟨0, _⟩ => exact (rhs_row _ _).trans hk
    | ⟨1, _⟩ => exact rhs_col _ _)
  show xb (dot_S10000x64_S64x64_S10000x64_1_0_0_1_n_n.lhsIdx j ((ValueIdx.contrEquiv1 dot_S10000x64_S64x64_S10000x64_1_0_0_1_n_n 64 rfl rfl).symm k)) * wb (dot_S10000x64_S64x64_S10000x64_1_0_0_1_n_n.rhsIdx j ((ValueIdx.contrEquiv1 dot_S10000x64_S64x64_S10000x64_1_0_0_1_n_n 64 rfl rfl).symm k)) = _
  rw [el, er]

/-- A block of rows times the weights is the same rows of the whole product: if the block xb holds rows q·10000 … of
    the array x and wb is the array w, then the stored value at j is the whole product at the index i that j stands at. -/
theorem block_eq (xb : Vec Ideal S10000x64 .f32) (wb : Vec Ideal S64x64 .f32)
    (x : (⟨S100000x64, .f32⟩ : BufTy).Contents (Elt Ideal)) (w : (⟨S64x64, .f32⟩ : BufTy).Contents (Elt Ideal))
    (q : Nat) (j : S10000x64.Idx) (i : S100000x64.Idx)
    (hi0 : (i 0).val = q * 10000 + (j 0).val) (hi1 : (i 1).val = (j 1).val)
    (hx : ∀ (y : S10000x64.Idx) (i' : S100000x64.Idx), (i' 0).val = q * 10000 + (y 0).val → (i' 1).val = (y 1).val → xb y = x i')
    (hw : ∀ y : S64x64.Idx, wb y = w y) :
    k0_pay1 (F := Ideal) xb wb j = Cert.ReferenceIdeal.Read.val_main_v0 (F := Ideal) x w i := by
  rw [prod_apply]
  refine Eq.trans ?_ (Cert.ReferenceIdeal.Read.val_main_v0_apply x w i).symm
  refine Finset.sum_congr rfl fun k _ => ?_
  rw [hx (rowAt j k) (Cert.ReferenceIdeal.Read.lidx_main_v0 i k) hi0 rfl, hw]
  refine congrArg (fun z => x (Cert.ReferenceIdeal.Read.lidx_main_v0 i k) * w z) ?_
  funext a; apply Fin.ext
  match a with
  | ⟨0, _⟩ => rfl
  | ⟨1, _⟩ => exact hi1.symm

/-! ## The region: what each point writes back, and the whole output array -/

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input rows' block moves with the output's, the weights' block stays at
    the origin, and the output's block index on the row axis is at most 9. -/
theorem idx_facts : ∀ t : Fin cfg0.N,
    win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 9 :=
  (by decide +kernel : ∀ t : Fin grid0.N, _)

/-- Each of the ten row blocks is some point's. -/
theorem idx_onto : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product of the two arrays as the region finds them. -/
theorem flushed_eq (c : Dev nD) (t : Fin cfg0.N) :
    (dat0 (F := Ideal) V c).flushed 2 t
      = ((cfg0.win 2).blk t).view.read (Elt Ideal) (Cert.ReferenceIdeal.Read.val_main_v0 (F := Ideal) (V c main_arg0) (V c main_arg2)) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e0, e1, e2, e3, e4, e5⟩ := idx_facts t
  funext j
  show k0_pay1 (F := Ideal) (iblk0 V c 0 t) (iblk0 V c 1 t) j
    = Cert.ReferenceIdeal.Read.val_main_v0 (F := Ideal) (V c main_arg0) (V c main_arg2) (((cfg0.win 2).blk t).view.emb j)
  refine block_eq (iblk0 V c 0 t) (iblk0 V c 1 t) (V c main_arg0) (V c main_arg2) (win0_2.index t (0 : Fin 2)) j _ ?_ ?_ ?_ ?_
  · show win0_2.index t (0 : Fin 2) * 10000 + 1 * (j 0).val = _
    omega
  · show win0_2.index t (1 : Fin 2) * 64 + 1 * (j 1).val = _
    omega
  · intro y i' h0 h1
    show V c main_arg0 (((cfg0.win 0).blk t).view.emb y) = V c main_arg0 i'
    refine congrArg (V c main_arg0) ?_
    funext a; apply Fin.ext
    match a with
    | ⟨0, _⟩ => show win0_0.index t (0 : Fin 2) * 10000 + 1 * (y 0).val = (i' 0).val; omega
    | ⟨1, _⟩ => show win0_0.index t (1 : Fin 2) * 64 + 1 * (y 1).val = (i' 1).val; omega
  · intro y
    show V c main_arg2 (((cfg0.win 1).blk t).view.emb y) = V c main_arg2 y
    refine congrArg (V c main_arg2) ?_
    funext a; apply Fin.ext
    match a with
    | ⟨0, _⟩ => show win0_1.index t (0 : Fin 2) * 64 + 1 * (y 0).val = (y 0).val; omega
    | ⟨1, _⟩ => show win0_1.index t (1 : Fin 2) * 64 + 1 * (y 1).val = (y 1).val; omega

/-- An index of the output array is in point t's block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v34).slice (win0_2.rect t)).set ↔ _
  rw [View.set_slice_whole, Rect.mem_set_unit]
  exact Iff.rfl

/-- The ten blocks tile the array: row r lies in the block of point r / 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- The output array when the region ends: the whole product of the input array and the weight array as entered. -/
theorem value (c : Dev nD) :
    (dat0 (F := Ideal) V c).arrAt 2 cfg0.N = Cert.ReferenceIdeal.Read.val_main_v0 (F := Ideal) (V c main_arg0) (V c main_arg2) :=
  (dat0 V c).arrAt_eq_of_cover 2 _ (fun t _ => flushed_eq V c t) cover

end Region

end Cert.KernelIdeal.Lin0

end
-- ==== Proof.Lin2.lean ====
/- The linear layer's region (the second matrix product): what its output array holds when the region ends.

  Each grid point t multiplies a block of 10000 rows of the input array by the whole 64×64 weight array and writes the
  10000×64 product back as block t of the output. Over the extended reals the change of float format before the
  product is the identity and the product into a zero accumulator is the plain sum over the contracted axis, so entry
  (r, j) of block t is ∑ₖ x(10000·t + r, k) · w(k, j): block t of the whole product of the two arrays. The ten blocks
  tile the 100000 rows, so the output array ends as the whole product, for any contents the region is entered with.
-/
import proofs.«163922_j9388798509588_1_alg».proof.Proof.Gen.KernelIdeal.Frame
import proofs.«163922_j9388798509588_1_alg».proof.Proof.Gen.ReferenceIdeal.Read
import Idealize.ShloMosaic.Lib.Pipeline.Value
import Idealize.ShloMosaic.Lib.ValueIdx
import Idealize.ShloMosaic.PureOps.Ideal.Laws

set_option maxRecDepth 16384

noncomputable section

namespace Cert.KernelIdeal.Lin2

open Cert.KernelIdeal Cert.KernelIdeal.Gen
open Idealize.ShloMosaic Idealize.ShloMosaic.TcCoe Idealize.SL.Sem
open Idealize.ShloMosaic.Pipeline (Dat Cfg Window)

/-! ## The block product at an index -/

/-- The left operand's index for output index i and contraction index q keeps i's row. -/
theorem lhs_row (i : S10000x64.Idx) (q : dot_S10000x64_S64x64_S10000x64_1_0_0_1_n_n.contr.Idx) :
    (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
/-- … and its column is the contraction index. -/
theorem lhs_col (i : S10000x64.Idx) (q : dot_S10000x64_S64x64_S10000x64_1_0_0_1_n_n.contr.Idx) :
    (dot_S10000x64_S64x64_S10000x64_1_0_0_1_n_n.lhsIdx i q 1).val = (q ⟨0, by decide⟩).val :=
  dot_S10000x64_S64x64_S10000x64_1_0_0_1_n_n.lhsIdx_val_of_single rfl i q
/-- The right operand's row is the contraction index … -/
theorem rhs_row (i : S10000x64.Idx) (q : dot_S10000x64_S64x64_S10000x64_1_0_0_1_n_n.contr.Idx) :
    (dot_S10000x64_S64x64_S10000x64_1_0_0_1_n_n.rhsIdx i q 0).val = (q ⟨0, by decide⟩).val :=
  dot_S10000x64_S64x64_S10000x64_1_0_0_1_n_n.rhsIdx_val_of_single rfl i q
/-- … and its column is i's column. -/
theorem rhs_col (i : S10000x64.Idx) (q : dot_S10000x64_S64x64_S10000x64_1_0_0_1_n_n.contr.Idx) :
    (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- Row i₀ of the block, column k. -/
abbrev rowAt (i : S10000x64.Idx) (k : Fin 64) : S10000x64.Idx := fun a => match a with
  | ⟨0, _⟩ => ⟨(i 0).val, (i 0).isLt⟩
  | ⟨1, _⟩ => ⟨k.val, k.isLt⟩
/-- Row k of the weights, column i₁. -/
abbrev colAt (i : S10000x64.Idx) (k : Fin 64) : S64x64.Idx := fun a => match a with
  | ⟨0, _⟩ => ⟨k.val, k.isLt⟩
  | ⟨1, _⟩ => ⟨(i 1).val, (i 1).isLt⟩

/-- The body's stored value at an index: the sum over the 64 contracted positions of row × column. -/
theorem prod_apply (xb : Vec Ideal S10000x64 .f32) (wb : Vec Ideal S64x64 .f32) (j : S10000x64.Idx) :
    k2_pay1 (F := Ideal) xb wb j = ∑ k : Fin 64, xb (rowAt j k) * wb (colAt j k) := by
  unfold k2_pay1
  simp only [matmul, shapeCast_self]
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = rowAt j k := funext fun a => Fin.ext (by
    match a with
    | ⟨0, _⟩ => exact lhs_row _ _
    | ⟨1, _⟩ => exact (lhs_col _ _).trans hk)
  have er : dot_S10000x64_S64x64_S10000x64_1_0_0_1_n_n.rhsIdx j ((ValueIdx.contrEquiv1 dot_S10000x64_S64x64_S10000x64_1_0_0_1_n_n 64 rfl rfl).symm k) = colAt j k := funext fun a => Fin.ext (by
    match a with
    | ⟨0, _⟩ => exact (rhs_row _ _).trans hk
    | ⟨1, _⟩ => exact rhs_col _ _)
  show xb (dot_S10000x64_S64x64_S10000x64_1_0_0_1_n_n.lhsIdx j ((ValueIdx.contrEquiv1 dot_S10000x64_S64x64_S10000x64_1_0_0_1_n_n 64 rfl rfl).symm k)) * wb (dot_S10000x64_S64x64_S10000x64_1_0_0_1_n_n.rhsIdx j ((ValueIdx.contrEquiv1 dot_S10000x64_S64x64_S10000x64_1_0_0_1_n_n 64 rfl rfl).symm k)) = _
  rw [el, er]

/-- A block of rows times the weights is the same rows of the whole product: if the block xb holds rows q·10000 … of
    the array x and wb is the array w, then the stored value at j is the whole product at the index i that j stands at. -/
theorem block_eq (xb : Vec Ideal S10000x64 .f32) (wb : Vec Ideal S64x64 .f32)
    (x : (⟨S100000x64, .f32⟩ : BufTy).Contents (Elt Ideal)) (w : (⟨S64x64, .f32⟩ : BufTy).Contents (Elt Ideal))
    (q : Nat) (j : S10000x64.Idx) (i : S100000x64.Idx)
    (hi0 : (i 0).val = q * 10000 + (j 0).val) (hi1 : (i 1).val = (j 1).val)
    (hx : ∀ (y : S10000x64.Idx) (i' : S100000x64.Idx), (i' 0).val = q * 10000 + (y 0).val → (i' 1).val = (y 1).val → xb y = x i')
    (hw : ∀ y : S64x64.Idx, wb y = w y) :
    k2_pay1 (F := Ideal) xb wb j = Cert.ReferenceIdeal.Read.val_main_v0 (F := Ideal) x w i := by
  rw [prod_apply]
  refine Eq.trans ?_ (Cert.ReferenceIdeal.Read.val_main_v0_apply x w i).symm
  refine Finset.sum_congr rfl fun k _ => ?_
  rw [hx (rowAt j k) (Cert.ReferenceIdeal.Read.lidx_main_v0 i k) hi0 rfl, hw]
  refine congrArg (fun z => x (Cert.ReferenceIdeal.Read.lidx_main_v0 i k) * w z) ?_
  funext a; apply Fin.ext
  match a with
  | ⟨0, _⟩ => rfl
  | ⟨1, _⟩ => exact hi1.symm

/-! ## The region: what each point writes back, and the whole output array -/

section Region

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the input rows' block moves with the output's, the weights' block stays at
    the origin, and the output's block index on the row axis is at most 9. -/
theorem idx_facts : ∀ t : Fin cfg2.N,
    win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 9 :=
  (by decide +kernel : ∀ t : Fin grid2.N, _)

/-- Each of the ten row blocks is some point's. -/
theorem idx_onto : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product of the two arrays as the region finds them. -/
theorem flushed_eq (c : Dev nD) (t : Fin cfg2.N) :
    (dat2 (F := Ideal) V c).flushed 2 t
      = ((cfg2.win 2).blk t).view.read (Elt Ideal) (Cert.ReferenceIdeal.Read.val_main_v0 (F := Ideal) (V c main_v53) (V c main_arg4)) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e0, e1, e2, e3, e4, e5⟩ := idx_facts t
  funext j
  show k2_pay1 (F := Ideal) (iblk2 V c 0 t) (iblk2 V c 1 t) j
    = Cert.ReferenceIdeal.Read.val_main_v0 (F := Ideal) (V c main_v53) (V c main_arg4) (((cfg2.win 2).blk t).view.emb j)
  refine block_eq (iblk2 V c 0 t) (iblk2 V c 1 t) (V c main_v53) (V c main_arg4) (win2_2.index t (0 : Fin 2)) j _ ?_ ?_ ?_ ?_
  · show win2_2.index t (0 : Fin 2) * 10000 + 1 * (j 0).val = _
    omega
  · show win2_2.index t (1 : Fin 2) * 64 + 1 * (j 1).val = _
    omega
  · intro y i' h0 h1
    show V c main_v53 (((cfg2.win 0).blk t).view.emb y) = V c main_v53 i'
    refine congrArg (V c main_v53) ?_
    funext a; apply Fin.ext
    match a with
    | ⟨0, _⟩ => show win2_0.index t (0 : Fin 2) * 10000 + 1 * (y 0).val = (i' 0).val; omega
    | ⟨1, _⟩ => show win2_0.index t (1 : Fin 2) * 64 + 1 * (y 1).val = (i' 1).val; omega
  · intro y
    show V c main_arg4 (((cfg2.win 1).blk t).view.emb y) = V c main_arg4 y
    refine congrArg (V c main_arg4) ?_
    funext a; apply Fin.ext
    match a with
    | ⟨0, _⟩ => show win2_1.index t (0 : Fin 2) * 64 + 1 * (y 0).val = (y 0).val; omega
    | ⟨1, _⟩ => show win2_1.index t (1 : Fin 2) * 64 + 1 * (y 1).val = (y 1).val; omega

/-- An index of the output array is in point t's block iff each coordinate is in the block's range on its axis. -/
theorem mem_blk (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v54).slice (win2_2.rect t)).set ↔ _
  rw [View.set_slice_whole, Rect.mem_set_unit]
  exact Iff.rfl

/-- The ten blocks tile the array: row r lies in the block of point r / 10000. -/
theorem cover (i : S100000x64.Idx) : ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- The output array when the region ends: the whole product of the input array and the weight array as entered. -/
theorem value (c : Dev nD) :
    (dat2 (F := Ideal) V c).arrAt 2 cfg2.N = Cert.ReferenceIdeal.Read.val_main_v0 (F := Ideal) (V c main_v53) (V c main_arg4) :=
  (dat2 V c).arrAt_eq_of_cover 2 _ (fun t _ => flushed_eq V c t) cover

end Region

end Cert.KernelIdeal.Lin2

end
-- ==== Proof.Bias1.lean ====
/-
  The bias region after the first aggregation: what its output array holds when the region ends.

  Each grid point t takes block t (10000 rows) of the aggregated array and the whole bias vector, adds the bias to
  every row and takes the maximum with zero. The body's layout steps (the 64-vector viewed as one row, that row
  repeated over the 10000 rows) read the bias at the column, so entry (r, j) of block t is
  max (agg(10000·t + r, j) + b(j), 0): block t of the host's "add the bias broadcast over the rows, then maximum with
  the zero array". The ten blocks tile the 100000 rows, so the output array ends as that whole array, for any
  contents the region is entered with.
-/
import proofs.«163922_j9388798509588_1_alg».proof.Proof.Gen.KernelIdeal.Frame
import proofs.«163922_j9388798509588_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Bias1

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's stored value at an index, and the host's form of it -/

section Pure

variable {F : FTy → Type} [FloatOps F]

/-- The bias added along the rows, then the maximum with the zero array: the host program's spelling. -/
abbrev hostForm (agg : (⟨S100000x64, .f32⟩ : BufTy).Contents (Elt F)) (b : (⟨S64, .f32⟩ : BufTy).Contents (Elt F)) :
    (⟨S100000x64, .f32⟩ : BufTy).Contents (Elt F) :=
  maximumf (addf agg (Cert.ReferenceIdeal.Read.val_main_v54 (F := F) b)) (Cert.ReferenceIdeal.Read.val_main_call0_v0 (F := F))

/-- The body's stored value at row p, column q: the block's entry plus the bias at q, against zero. -/
theorem stored_apply (ab : Vec F S10000x64 .f32) (bb : Vec F S64 .f32) (p : Fin 10000) (q : Fin 64) :
    k1_pay1 (F := F) ab bb (ix2 p q)
      = FloatOps.maximumf (FloatOps.addf (ab (ix2 p q)) (bb (ix1 q))) (FloatOps.ofBits (F := F) .f32 0x00000000#32) := by
  unfold k1_pay1
  dsimp only [maximumf, addf, broadcast]
  rw [shapeCast_self, broadcastTo_1b_ab_apply, shapeCast_a_1a_apply]

/-- The host's form at an index: the array's entry plus the bias at the index's column, against zero. -/
theorem hostForm_apply (agg : (⟨S100000x64, .f32⟩ : BufTy).Contents (Elt F)) (b : (⟨S64, .f32⟩ : BufTy).Contents (Elt F))
    (i : S100000x64.Idx) :
    hostForm agg b i = FloatOps.maximumf (FloatOps.addf (agg i)
      (b (Cert.ReferenceIdeal.Read.idx_main_v53 (Cert.ReferenceIdeal.Read.idx_main_v54 i)))) (FloatOps.ofBits (F := F) .f32 0x00000000#32) := by
  dsimp only [hostForm, maximumf, addf]
  rw [Cert.ReferenceIdeal.Read.val_main_v54_apply, Cert.ReferenceIdeal.Read.val_main_v53_apply,
    Cert.ReferenceIdeal.Read.val_main_call0_v0_apply, Cert.ReferenceIdeal.Read.val_main_call0_cst_apply]

/-- A block of rows through the body is the same rows of the host's form: if the block's entry at j is the array's at
    i, the columns agree, and the bias vectors agree, the stored value at j is the host's form at i. -/
theorem block_eq (ab : Vec F S10000x64 .f32) (bb : Vec F S64 .f32)
    (agg : (⟨S100000x64, .f32⟩ : BufTy).Contents (Elt F)) (b : (⟨S64, .f32⟩ : BufTy).Contents (Elt F))
    (j : S10000x64.Idx) (i : S100000x64.Idx)
    (hi1 : (i 1).val = (j 1).val) (ha : ab j = agg i) (hb : ∀ y : S64.Idx, bb y = b y) :
    k1_pay1 (F := F) ab bb j = hostForm agg b i := by
  obtain ⟨p, q, rfl⟩ : ∃ (p : Fin 10000) (q : Fin 64), j = ix2 p q := ⟨j 0, j 1, eq_ix2 j⟩
  rw [hostForm_apply, ← ha, stored_apply, hb]
  refine congrArg (fun z => FloatOps.maximumf (FloatOps.addf (ab (ix2 p q)) (b z)) (FloatOps.ofBits (F := F) .f32 0x00000000#32)) ?_
  funext a; apply Fin.ext
  match a with
  | ⟨0, _⟩ => exact hi1.symm

end Pure

/-! ## The region: what each point writes back, and the whole output array -/

section Region

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the aggregated rows' block moves with the output's, the bias vector's block
    stays at the origin, and the output's block index on the row axis is at most 9. -/
theorem idx_facts : ∀ t : Fin cfg1.N,
    win1_0.index t (0 : Fin 2) = win1_2.index t (0 : Fin 2)
    ∧ win1_0.index t (1 : Fin 2) = 0
    ∧ win1_1.index t (0 : Fin 1) = 0
    ∧ win1_2.index t (1 : Fin 2) = 0
    ∧ win1_2.index t (0 : Fin 2) ≤ 9 :=
  (by decide +kernel : ∀ t : Fin grid1.N, _)

/-- Each of the ten row blocks is some point's. -/
theorem idx_onto : ∀ q0 : Fin 10, ∃ t : Fin cfg1.N, win1_2.index t = ![q0.val, 0] :=
  (by decide +kernel : ∀ q0 : Fin 10, ∃ t : Fin grid1.N, win1_2.index t = ![q0.val, 0])

/-- What point t writes back is block t of the host's form of the two arrays as the region finds them. -/
theorem flushed_eq (c : Dev nD) (t : Fin cfg1.N) :
    (dat1 (F := Ideal) V c).flushed 2 t
      = ((cfg1.win 2).blk t).view.read (Elt Ideal) (hostForm (F := Ideal) (V c main_v52) (V c main_arg3)) := by
  show (cfg1.win 2).cut (grid1.coords t) ((dat1 V c).after 2 t) = _
  rw [after1_2]
  unfold out1_2
  rw [View.canon_unit_zero hz2]
  simp only [View.ld_unit_zero (S := S10000x64) hz2, View.ld_unit_zero (S := S64) hz1]
  obtain ⟨e0, e1, e2, e3, e4⟩ := idx_facts t
  funext j
  show k1_pay1 (F := Ideal) (iblk1 V c 0 t) (iblk1 V c 1 t) j
    = hostForm (F := Ideal) (V c main_v52) (V c main_arg3) (((cfg1.win 2).blk t).view.emb j)
  refine block_eq (iblk1 V c 0 t) (iblk1 V c 1 t) (V c main_v52) (V c main_arg3) j _ ?_ ?_ ?_
  · show win1_2.index t (1 : Fin 2) * 64 + 1 * (j 1).val = _
    omega
  · show V c main_v52 (((cfg1.win 0).blk t).view.emb j) = V c main_v52 (((cfg1.win 2).blk t).view.emb j)
    refine congrArg (V c main_v52) ?_
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  · intro y
    show V c main_arg3 (((cfg1.win 1).blk t).view.emb y) = V c main_arg3 y
    refine congrArg (V c main_arg3) ?_
    funext a; apply Fin.ext
    match a with
    | ⟨0, _⟩ => show win1_1.index t (0 : Fin 1) * 64 + 1 * (y 0).val = (y 0).val; omega

/-- An index of the output array is in point t's block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v53).slice (win1_2.rect t)).set ↔ _
  rw [View.set_slice_whole, Rect.mem_set_unit]
  exact Iff.rfl

/-- The ten blocks tile the array: row r lies in the block of point r / 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := idx_onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- The output array when the region ends: the host's form of the aggregated array and the bias vector as entered. -/
theorem value (c : Dev nD) :
    (dat1 (F := Ideal) V c).arrAt 2 cfg1.N = hostForm (F := Ideal) (V c main_v52) (V c main_arg3) :=
  (dat1 V c).arrAt_eq_of_cover 2 _ (fun t _ => flushed_eq V c t) cover

end Region

end Cert.KernelIdeal.Bias1

end
-- ==== Proof.Bias3.lean ====
/-
  The bias region after the second aggregation, which writes the program's result.

  Each grid point t takes block t (10000 rows) of the second aggregated array and the whole second bias vector and
  adds the bias to every row; there is no activation after the last layer. The 64-vector is viewed as one row and that
  row repeated over the 10000 rows, so entry (r, j) of block t is agg(10000·t + r, j) + b(j): block t of the host's
  "add the bias broadcast over the rows". The ten blocks tile the 100000 rows, so the result array ends as that whole
  sum, for any contents the region is entered with.
-/
import proofs.«163922_j9388798509588_1_alg».proof.Proof.Gen.KernelIdeal.Frame
import proofs.«163922_j9388798509588_1_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.KernelIdeal.Bias3

open Cert.KernelIdeal Cert.KernelIdeal.Gen
open Idealize.ShloMosaic Idealize.ShloMosaic.TcCoe Idealize.SL.Sem Idealize.ShloMosaic.ValueIdx
open Idealize.ShloMosaic.Pipeline (Dat Cfg Window)

/-! ## The body's stored value at an index, and the host's sum -/

section Pure

variable {F : FTy → Type} [FloatOps F]

/-- The bias added along the rows: the host program's spelling of the last stage. -/
abbrev hostSum (agg : (⟨S100000x64, .f32⟩ : BufTy).Contents (Elt F)) (b : (⟨S64, .f32⟩ : BufTy).Contents (Elt F)) :
    (⟨S100000x64, .f32⟩ : BufTy).Contents (Elt F) :=
  addf agg (Cert.ReferenceIdeal.Read.val_main_v111 (F := F) b)

/-- The body's stored value at row p, column q: the block's entry plus the bias at q. -/
theorem stored_apply (ab : Vec F S10000x64 .f32) (bb : Vec F S64 .f32) (p : Fin 10000) (q : Fin 64) :
    k3_pay1 (F := F) ab bb (ix2 p q) = FloatOps.addf (ab (ix2 p q)) (bb (ix1 q)) := by
  unfold k3_pay1
  dsimp only [addf]
  rw [shapeCast_self, broadcastTo_1b_ab_apply, shapeCast_a_1a_apply]

/-- The host's sum at an index: the array's entry plus the bias at the index's column. -/
theorem hostSum_apply (agg : (⟨S100000x64, .f32⟩ : BufTy).Contents (Elt F)) (b : (⟨S64, .f32⟩ : BufTy).Contents (Elt F))
    (i : S100000x64.Idx) :
    hostSum agg b i = FloatOps.addf (agg i)
      (b (Cert.ReferenceIdeal.Read.idx_main_v110 (Cert.ReferenceIdeal.Read.idx_main_v111 i))) := by
  dsimp only [hostSum, addf]
  rw [Cert.ReferenceIdeal.Read.val_main_v111_apply, Cert.ReferenceIdeal.Read.val_main_v110_apply]

/-- A block of rows through the body is the same rows of the host's sum. -/
theorem block_eq (ab : Vec F S10000x64 .f32) (bb : Vec F S64 .f32)
    (agg : (⟨S100000x64, .f32⟩ : BufTy).Contents (Elt F)) (b : (⟨S64, .f32⟩ : BufTy).Contents (Elt F))
    (j : S10000x64.Idx) (i : S100000x64.Idx)
    (hi1 : (i 1).val = (j 1).val) (ha : ab j = agg i) (hb : ∀ y : S64.Idx, bb y = b y) :
    k3_pay1 (F := F) ab bb j = hostSum agg b i := by
  obtain ⟨p, q, rfl⟩ : ∃ (p : Fin 10000) (q : Fin 64), j = ix2 p q := ⟨j 0, j 1, eq_ix2 j⟩
  rw [hostSum_apply, ← ha, stored_apply, hb]
  refine congrArg (fun z => FloatOps.addf (ab (ix2 p q)) (b z)) ?_
  funext a; apply Fin.ext
  match a with
  | ⟨0, _⟩ => exact hi1.symm

end Pure

/-! ## The region: what each point writes back, and the whole result array -/

section Region

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-- The printed index maps over the grid: the aggregated rows' block moves with the result's, the bias vector's block
    stays at the origin, and the result's block index on the row axis is at most 9. -/
theorem idx_facts : ∀ t : Fin cfg3.N,
    win3_0.index t (0 : Fin 2) = win3_2.index t (0 : Fin 2)
    ∧ win3_0.index t (1 : Fin 2) = 0
    ∧ win3_1.index t (0 : Fin 1) = 0
    ∧ win3_2.index t (1 : Fin 2) = 0
    ∧ win3_2.index t (0 : Fin 2) ≤ 9 :=
  (by decide +kernel : ∀ t : Fin grid3.N, _)

/-- Each of the ten row blocks is some point's. -/
theorem idx_onto : ∀ q0 : Fin 10, ∃ t : Fin cfg3.N, win3_2.index t = ![q0.val, 0] :=
  (by decide +kernel : ∀ q0 : Fin 10, ∃ t : Fin grid3.N, win3_2.index t = ![q0.val, 0])

/-- What point t writes back is block t of the host's sum of the two arrays as the region finds them. -/
theorem flushed_eq (c : Dev nD) (t : Fin cfg3.N) :
    (dat3 (F := Ideal) V c).flushed 2 t
      = ((cfg3.win 2).blk t).view.read (Elt Ideal) (hostSum (F := Ideal) (V c main_v72) (V c main_arg5)) := by
  show (cfg3.win 2).cut (grid3.coords t) ((dat3 V c).after 2 t) = _
  rw [after3_2]
  unfold out3_2
  rw [View.canon_unit_zero hz2]
  simp only [View.ld_unit_zero (S := S10000x64) hz2, View.ld_unit_zero (S := S64) hz1]
  obtain ⟨e0, e1, e2, e3, e4⟩ := idx_facts t
  funext j
  show k3_pay1 (F := Ideal) (iblk3 V c 0 t) (iblk3 V c 1 t) j
    = hostSum (F := Ideal) (V c main_v72) (V c main_arg5) (((cfg3.win 2).blk t).view.emb j)
  refine block_eq (iblk3 V c 0 t) (iblk3 V c 1 t) (V c main_v72) (V c main_arg5) j _ ?_ ?_ ?_
  · show win3_2.index t (1 : Fin 2) * 64 + 1 * (j 1).val = _
    omega
  · show V c main_v72 (((cfg3.win 0).blk t).view.emb j) = V c main_v72 (((cfg3.win 2).blk t).view.emb j)
    refine congrArg (V c main_v72) ?_
    funext a; apply Fin.ext
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 64 + 1 * (j 1).val = win3_2.index t (1 : Fin 2) * 64 + 1 * (j 1).val; omega
  · intro y
    show V c main_arg5 (((cfg3.win 1).blk t).view.emb y) = V c main_arg5 y
    refine congrArg (V c main_arg5) ?_
    funext a; apply Fin.ext
    match a with
    | ⟨0, _⟩ => show win3_1.index t (0 : Fin 1) * 64 + 1 * (y 0).val = (y 0).val; omega

/-- An index of the result array is in point t's block iff each coordinate is in the block's range on its axis. -/
theorem mem_blk (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v73).slice (win3_2.rect t)).set ↔ _
  rw [View.set_slice_whole, Rect.mem_set_unit]
  exact Iff.rfl

/-- The ten blocks tile the array: row r lies in the block of point r / 10000. -/
theorem cover (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- The result array when the region ends: the host's sum of the aggregated array and the bias vector as entered. -/
theorem value (c : Dev nD) :
    (dat3 (F := Ideal) V c).arrAt 2 cfg3.N = hostSum (F := Ideal) (V c main_v72) (V c main_arg5) :=
  (dat3 V c).arrAt_eq_of_cover 2 _ (fun t _ => flushed_eq V c t) cover

end Region

end Cert.KernelIdeal.Bias3

end
-- ==== Proof.AggSpec.lean ====
/-
  The aggregation both programs share, as one function.

  A layer's messages are gathered from the layer's linear output at the source nodes, scaled by the edge's
  normalisation, and summed into the destination nodes. Both programs spell this with the same host operations: an
  index below zero is counted from the end (compare with 0, add 100000, select), the index vector becomes one column,
  the rows are gathered, multiplied by the normalisation repeated over the 64 columns, and scatter-added into a zero
  array. `aggOf` is that chain applied to ANY linear output, index vectors and normalisation; the reference's two
  aggregation stages are it at the reference's own operands, and its second copy of the index and normalisation
  computations is the first, operation for operation.
-/
import proofs.«163922_j9388798509588_1_alg».proof.Proof.Gen.ReferenceIdeal.Read

noncomputable section

namespace Cert.ReferenceIdeal.Agg

open Cert.ReferenceIdeal Cert.ReferenceIdeal.Gen Cert.ReferenceIdeal.Read Idealize.ShloMosaic Idealize.ShloMosaic.TcCoe Idealize.SL.Sem Idealize.ShloMosaic.StableHlo

variable {F : FTy → Type} [FloatOps F]

/-- An index vector with negative entries counted from the end of the 100000 nodes, as one column. -/
def wrapCol (v : (⟨S1700000, .i32⟩ : BufTy).Contents (Elt F)) : (⟨S1700000x1, .i32⟩ : BufTy).Contents (Elt F) :=
  broadcastInDim S1700000x1 ![0] bcast_S1700000_S1700000x1_0
    (select (cmpi .slt v (broadcastInDim S1700000 ![] bcast_S_S1700000 (constantI S_ 32 0#32)))
      (addi v (broadcastInDim S1700000 ![] bcast_S_S1700000 (constantI S_ 32 100000#32))) v)

/-- Gather the rows of `lin` at the sources, scale each by its edge's normalisation, sum into the destinations. -/
def aggOf (lin : (⟨S100000x64, .f32⟩ : BufTy).Contents (Elt F)) (src dst : (⟨S1700000, .i32⟩ : BufTy).Contents (Elt F)) (norm : (⟨S1700000, .f32⟩ : BufTy).Contents (Elt F)) :
    (⟨S100000x64, .f32⟩ : BufTy).Contents (Elt F) :=
  Host.scatterAdd scatter_S100000x64_S1700000x1_S1700000x64_1_0_0_1
    (broadcastInDim S100000x64 ![] bcast_S_S100000x64 (constant S_ .f32 0x00000000#32))
    (wrapCol dst)
    (mulf (Host.gather gather_S100000x64_S1700000x1_S1700000x64_1_0_n_n_0_1_164 lin (wrapCol src))
      (broadcastInDim S1700000x64 ![0, 1] bcast_S1700000x1_S1700000x64_0_1
        (broadcastInDim S1700000x1 ![0] bcast_S1700000_S1700000x1_0 norm)))

/-- The first layer's aggregation stage is the chain at the first linear output. -/
theorem agg_first (x0 : (⟨S100000x64, .f32⟩ : BufTy).Contents (Elt F)) (x1 : (⟨S2x1600000, .i32⟩ : BufTy).Contents (Elt F)) (x2 : (⟨S64x64, .f32⟩ : BufTy).Contents (Elt F)) :
    val_main_v52 (F := F) x0 x1 x2
      = aggOf (val_main_v0 (F := F) x0 x2) (val_main_v4 (F := F) x1) (val_main_v7 (F := F) x1) (val_main_v34 (F := F) x1) := rfl

/-- The second linear output is the product of the first layer's activations with the second weights. -/
theorem lin_second (x0 : (⟨S100000x64, .f32⟩ : BufTy).Contents (Elt F)) (x1 : (⟨S2x1600000, .i32⟩ : BufTy).Contents (Elt F)) (x2 : (⟨S64x64, .f32⟩ : BufTy).Contents (Elt F))
    (x3 : (⟨S64, .f32⟩ : BufTy).Contents (Elt F)) (x4 : (⟨S64x64, .f32⟩ : BufTy).Contents (Elt F)) :
    val_main_v57 (F := F) x0 x1 x2 x3 x4 = val_main_v0 (F := F) (val_main_v56 (F := F) x0 x1 x2 x3) x4 := rfl

/-- The second layer's aggregation stage is the same chain at the second linear output: the reference computes the
    index vectors and the normalisation a second time, by the same operations from the same edge array. -/
theorem agg_second (x0 : (⟨S100000x64, .f32⟩ : BufTy).Contents (Elt F)) (x1 : (⟨S2x1600000, .i32⟩ : BufTy).Contents (Elt F)) (x2 : (⟨S64x64, .f32⟩ : BufTy).Contents (Elt F))
    (x3 : (⟨S64, .f32⟩ : BufTy).Contents (Elt F)) (x4 : (⟨S64x64, .f32⟩ : BufTy).Contents (Elt F)) :
    val_main_v109 (F := F) x0 x1 x2 x3 x4
      = aggOf (val_main_v57 (F := F) x0 x1 x2 x3 x4) (val_main_v4 (F := F) x1) (val_main_v7 (F := F) x1) (val_main_v34 (F := F) x1) := rfl

end Cert.ReferenceIdeal.Agg

end
-- ==== Proof.HostStages.lean ====
/-
  The kernel program's three stretches of host operations, each read as a function of the contents it starts from.

  The first stretch builds the source and destination index vectors (the edge array's two rows, each followed by
  0 … 99999 for the self loops) and the edge normalisation; it writes no argument. The second and the third are the
  aggregation chain (AggSpec) applied to the linear output the region before them left, with the index vectors and the
  normalisation of the first stretch, which no later segment writes. The operations are the reference's own, so each
  result is the reference's stage function (or the shared chain) of the same operands.
-/
import proofs.«163922_j9388798509588_1_alg».proof.Proof.Gen.KernelIdeal.Launch
import proofs.«163922_j9388798509588_1_alg».proof.Proof.AggSpec
import Idealize.ShloMosaic.Lib.StableHlo.Run

noncomputable section

namespace Cert.KernelIdeal.HostStages

open Cert.KernelIdeal Cert.KernelIdeal.Gen Idealize.ShloMosaic Idealize.ShloMosaic.TcCoe Idealize.ShloMosaic.StableHlo

variable {F : FTy → Type} [FloatOps F] (W : Valuation τ sig (Elt F))

/-! ## Before the first region -/

/-- The source indices: the edge array's row 0, then the nodes themselves. -/
theorem first_src : StableHlo.after hostOps0 W (Proc.devRef .tc main_v3)
    = Cert.ReferenceIdeal.Read.val_main_v4 (F := F) (W (Proc.devRef .tc main_arg1)) := by
  dsimp only [hostOps0]; after_results_simp; rfl

/-- The destination indices: the edge array's row 1, then the nodes themselves. -/
theorem first_dst : StableHlo.after hostOps0 W (Proc.devRef .tc main_v6)
    = Cert.ReferenceIdeal.Read.val_main_v7 (F := F) (W (Proc.devRef .tc main_arg1)) := by
  dsimp only [hostOps0]; after_results_simp; rfl

/-- The edge normalisation: the inverse square roots of the (at least 1) in-degrees at the two ends, multiplied. -/
theorem first_norm : StableHlo.after hostOps0 W (Proc.devRef .tc main_v33)
    = Cert.ReferenceIdeal.Read.val_main_v34 (F := F) (W (Proc.devRef .tc main_arg1)) := by
  dsimp only [hostOps0]; after_results_simp; rfl

theorem hostOps0_keep_main_arg0 : StableHlo.after hostOps0 W (Proc.devRef .tc main_arg0) = W (Proc.devRef .tc main_arg0) := by
  dsimp only [hostOps0]; after_results_simp
theorem hostOps0_keep_main_arg2 : StableHlo.after hostOps0 W (Proc.devRef .tc main_arg2) = W (Proc.devRef .tc main_arg2) := by
  dsimp only [hostOps0]; after_results_simp
theorem hostOps0_keep_main_arg3 : StableHlo.after hostOps0 W (Proc.devRef .tc main_arg3) = W (Proc.devRef .tc main_arg3) := by
  dsimp only [hostOps0]; after_results_simp
theorem hostOps0_keep_main_arg4 : StableHlo.after hostOps0 W (Proc.devRef .tc main_arg4) = W (Proc.devRef .tc main_arg4) := by
  dsimp only [hostOps0]; after_results_simp
theorem hostOps0_keep_main_arg5 : StableHlo.after hostOps0 W (Proc.devRef .tc main_arg5) = W (Proc.devRef .tc main_arg5) := by
  dsimp only [hostOps0]; after_results_simp

/-! ## Between the first linear region and the first bias region -/

/-- The aggregated array is the shared chain at the linear output, the index vectors and the normalisation as the
    stretch finds them. -/
theorem second_agg : StableHlo.after hostOps1 W (Proc.devRef .tc main_v52)
    = Cert.ReferenceIdeal.Agg.aggOf (F := F) (W (Proc.devRef .tc main_v34)) (W (Proc.devRef .tc main_v3))
        (W (Proc.devRef .tc main_v6)) (W (Proc.devRef .tc main_v33)) := by
  dsimp only [hostOps1]; after_results_simp; rfl

theorem hostOps1_keep_main_v3 : StableHlo.after hostOps1 W (Proc.devRef .tc main_v3) = W (Proc.devRef .tc main_v3) := by
  dsimp only [hostOps1]; after_results_simp
theorem hostOps1_keep_main_v6 : StableHlo.after hostOps1 W (Proc.devRef .tc main_v6) = W (Proc.devRef .tc main_v6) := by
  dsimp only [hostOps1]; after_results_simp
theorem hostOps1_keep_main_v33 : StableHlo.after hostOps1 W (Proc.devRef .tc main_v33) = W (Proc.devRef .tc main_v33) := by
  dsimp only [hostOps1]; after_results_simp
theorem hostOps1_keep_main_arg3 : StableHlo.after hostOps1 W (Proc.devRef .tc main_arg3) = W (Proc.devRef .tc main_arg3) := by
  dsimp only [hostOps1]; after_results_simp
theorem hostOps1_keep_main_arg4 : StableHlo.after hostOps1 W (Proc.devRef .tc main_arg4) = W (Proc.devRef .tc main_arg4) := by
  dsimp only [hostOps1]; after_results_simp
theorem hostOps1_keep_main_arg5 : StableHlo.after hostOps1 W (Proc.devRef .tc main_arg5) = W (Proc.devRef .tc main_arg5) := by
  dsimp only [hostOps1]; after_results_simp

/-! ## Between the second linear region and the second bias region -/

theorem third_agg : StableHlo.after hostOps3 W (Proc.devRef .tc main_v72)
    = Cert.ReferenceIdeal.Agg.aggOf (F := F) (W (Proc.devRef .tc main_v54)) (W (Proc.devRef .tc main_v3))
        (W (Proc.devRef .tc main_v6)) (W (Proc.devRef .tc main_v33)) := by
  dsimp only [hostOps3]; after_results_simp; rfl

theorem hostOps3_keep_main_arg5 : StableHlo.after hostOps3 W (Proc.devRef .tc main_arg5) = W (Proc.devRef .tc main_arg5) := by
  dsimp only [hostOps3]; after_results_simp

end Cert.KernelIdeal.HostStages

end
-- ==== Proof.KernelValue.lean ====
/-
  The kernel program's result as a function of its arguments.

  The run's contents at each segment boundary are a fold from the launch memory: a stretch of host operations
  rewrites the buffers it computes, a region leaves its output array at what its write-backs built and every other
  buffer as it found it. Walking that fold, boundary by boundary, for just the buffers the next segment reads:
  the index vectors and the normalisation are made once and never written again; the first linear region leaves the
  product x·W₁; the host chain aggregates it; the first bias region leaves max(· + b₁, 0); the second linear region
  leaves its product with W₂; the host chain aggregates again; the last region adds b₂. Each of these is the
  reference's stage function of the same name, so the result buffer ends at the reference's last stage of the six
  launch arguments.
-/
import proofs.«163922_j9388798509588_1_alg».proof.Proof.Gen.KernelIdeal.Frame
import proofs.«163922_j9388798509588_1_alg».proof.Proof.Lin0
import proofs.«163922_j9388798509588_1_alg».proof.Proof.Lin2
import proofs.«163922_j9388798509588_1_alg».proof.Proof.Bias1
import proofs.«163922_j9388798509588_1_alg».proof.Proof.Bias3
import proofs.«163922_j9388798509588_1_alg».proof.Proof.HostStages

set_option maxRecDepth 16384

noncomputable section

namespace Cert.KernelIdeal.Whole

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## After the first host stretch: the index vectors, the normalisation, the arguments -/

theorem at1_src : W1 m ρ c (Proc.devRef .tc main_v3) = Cert.ReferenceIdeal.Read.val_main_v4 (F := Ideal) (m ((c : Thread nD τ).loc main_arg1)) := HostStages.first_src (W0 m ρ c)
theorem at1_dst : W1 m ρ c (Proc.devRef .tc main_v6) = Cert.ReferenceIdeal.Read.val_main_v7 (F := Ideal) (m ((c : Thread nD τ).loc main_arg1)) := HostStages.first_dst (W0 m ρ c)
theorem at1_norm : W1 m ρ c (Proc.devRef .tc main_v33) = Cert.ReferenceIdeal.Read.val_main_v34 (F := Ideal) (m ((c : Thread nD τ).loc main_arg1)) := HostStages.first_norm (W0 m ρ c)
theorem at1_arg0 : W1 m ρ c (Proc.devRef .tc main_arg0) = (m ((c : Thread nD τ).loc main_arg0)) := HostStages.hostOps0_keep_main_arg0 (W0 m ρ c)
theorem at1_arg2 : W1 m ρ c (Proc.devRef .tc main_arg2) = (m ((c : Thread nD τ).loc main_arg2)) := HostStages.hostOps0_keep_main_arg2 (W0 m ρ c)
theorem at1_arg3 : W1 m ρ c (Proc.devRef .tc main_arg3) = (m ((c : Thread nD τ).loc main_arg3)) := HostStages.hostOps0_keep_main_arg3 (W0 m ρ c)
theorem at1_arg4 : W1 m ρ c (Proc.devRef .tc main_arg4) = (m ((c : Thread nD τ).loc main_arg4)) := HostStages.hostOps0_keep_main_arg4 (W0 m ρ c)
theorem at1_arg5 : W1 m ρ c (Proc.devRef .tc main_arg5) = (m ((c : Thread nD τ).loc main_arg5)) := HostStages.hostOps0_keep_main_arg5 (W0 m ρ c)

/-! ## After the first linear region -/

theorem at2_lin : W2 m ρ c (Proc.devRef .tc main_v34) = Cert.ReferenceIdeal.Read.val_main_v0 (F := Ideal) (m ((c : Thread nD τ).loc main_arg0)) (m ((c : Thread nD τ).loc main_arg2)) := by
  refine (W2_arr m ρ c 2).trans ((Lin0.value (V1 m ρ) c).trans ?_)
  show Cert.ReferenceIdeal.Read.val_main_v0 (F := Ideal) (W1 m ρ c (Proc.devRef .tc main_arg0)) (W1 m ρ c (Proc.devRef .tc main_arg2)) = _
  rw [at1_arg0, at1_arg2]
theorem at2_src : W2 m ρ c (Proc.devRef .tc main_v3) = Cert.ReferenceIdeal.Read.val_main_v4 (F := Ideal) (m ((c : Thread nD τ).loc main_arg1)) :=
  (W2_of_ne m ρ c main_v3 (by decide)).trans (at1_src m ρ c)
theorem at2_dst : W2 m ρ c (Proc.devRef .tc main_v6) = Cert.ReferenceIdeal.Read.val_main_v7 (F := Ideal) (m ((c : Thread nD τ).loc main_arg1)) :=
  (W2_of_ne m ρ c main_v6 (by decide)).trans (at1_dst m ρ c)
theorem at2_norm : W2 m ρ c (Proc.devRef .tc main_v33) = Cert.ReferenceIdeal.Read.val_main_v34 (F := Ideal) (m ((c : Thread nD τ).loc main_arg1)) :=
  (W2_of_ne m ρ c main_v33 (by decide)).trans (at1_norm m ρ c)
theorem at2_arg3 : W2 m ρ c (Proc.devRef .tc main_arg3) = (m ((c : Thread nD τ).loc main_arg3)) :=
  (W2_of_ne m ρ c main_arg3 (by decide)).trans (at1_arg3 m ρ c)
theorem at2_arg4 : W2 m ρ c (Proc.devRef .tc main_arg4) = (m ((c : Thread nD τ).loc main_arg4)) :=
  (W2_of_ne m ρ c main_arg4 (by decide)).trans (at1_arg4 m ρ c)
theorem at2_arg5 : W2 m ρ c (Proc.devRef .tc main_arg5) = (m ((c : Thread nD τ).loc main_arg5)) :=
  (W2_of_ne m ρ c main_arg5 (by decide)).trans (at1_arg5 m ρ c)

/-! ## After the first aggregation -/

theorem at3_agg : W3 m ρ c (Proc.devRef .tc main_v52) = Cert.ReferenceIdeal.Read.val_main_v52 (F := Ideal) (m ((c : Thread nD τ).loc main_arg0)) (m ((c : Thread nD τ).loc main_arg1)) (m ((c : Thread nD τ).loc main_arg2)) := by
  refine (HostStages.second_agg (W2 m ρ c)).trans ?_
  rw [at2_lin, at2_src, at2_dst, at2_norm]
  exact (Cert.ReferenceIdeal.Agg.agg_first _ _ _).symm
theorem at3_src : W3 m ρ c (Proc.devRef .tc main_v3) = Cert.ReferenceIdeal.Read.val_main_v4 (F := Ideal) (m ((c : Thread nD τ).loc main_arg1)) :=
  (HostStages.hostOps1_keep_main_v3 (W2 m ρ c)).trans (at2_src m ρ c)
theorem at3_dst : W3 m ρ c (Proc.devRef .tc main_v6) = Cert.ReferenceIdeal.Read.val_main_v7 (F := Ideal) (m ((c : Thread nD τ).loc main_arg1)) :=
  (HostStages.hostOps1_keep_main_v6 (W2 m ρ c)).trans (at2_dst m ρ c)
theorem at3_norm : W3 m ρ c (Proc.devRef .tc main_v33) = Cert.ReferenceIdeal.Read.val_main_v34 (F := Ideal) (m ((c : Thread nD τ).loc main_arg1)) :=
  (HostStages.hostOps1_keep_main_v33 (W2 m ρ c)).trans (at2_norm m ρ c)
theorem at3_arg3 : W3 m ρ c (Proc.devRef .tc main_arg3) = (m ((c : Thread nD τ).loc main_arg3)) :=
  (HostStages.hostOps1_keep_main_arg3 (W2 m ρ c)).trans (at2_arg3 m ρ c)
theorem at3_arg4 : W3 m ρ c (Proc.devRef .tc main_arg4) = (m ((c : Thread nD τ).loc main_arg4)) :=
  (HostStages.hostOps1_keep_main_arg4 (W2 m ρ c)).trans (at2_arg4 m ρ c)
theorem at3_arg5 : W3 m ρ c (Proc.devRef .tc main_arg5) = (m ((c : Thread nD τ).loc main_arg5)) :=
  (HostStages.hostOps1_keep_main_arg5 (W2 m ρ c)).trans (at2_arg5 m ρ c)

/-! ## After the first bias region: the first layer's activations -/

theorem at4_act : W4 m ρ c (Proc.devRef .tc main_v53) = Cert.ReferenceIdeal.Read.val_main_v56 (F := Ideal) (m ((c : Thread nD τ).loc main_arg0)) (m ((c : Thread nD τ).loc main_arg1)) (m ((c : Thread nD τ).loc main_arg2)) (m ((c : Thread nD τ).loc main_arg3)) := by
  refine (W4_arr m ρ c 2).trans ((Bias1.value (V3 m ρ) c).trans ?_)
  show Bias1.hostForm (F := Ideal) (W3 m ρ c (Proc.devRef .tc main_v52)) (W3 m ρ c (Proc.devRef .tc main_arg3)) = _
  rw [at3_agg, at3_arg3]
  rfl
theorem at4_src : W4 m ρ c (Proc.devRef .tc main_v3) = Cert.ReferenceIdeal.Read.val_main_v4 (F := Ideal) (m ((c : Thread nD τ).loc main_arg1)) :=
  (W4_of_ne m ρ c main_v3 (by decide)).trans (at3_src m ρ c)
theorem at4_dst : W4 m ρ c (Proc.devRef .tc main_v6) = Cert.ReferenceIdeal.Read.val_main_v7 (F := Ideal) (m ((c : Thread nD τ).loc main_arg1)) :=
  (W4_of_ne m ρ c main_v6 (by decide)).trans (at3_dst m ρ c)
theorem at4_norm : W4 m ρ c (Proc.devRef .tc main_v33) = Cert.ReferenceIdeal.Read.val_main_v34 (F := Ideal) (m ((c : Thread nD τ).loc main_arg1)) :=
  (W4_of_ne m ρ c main_v33 (by decide)).trans (at3_norm m ρ c)
theorem at4_arg4 : W4 m ρ c (Proc.devRef .tc main_arg4) = (m ((c : Thread nD τ).loc main_arg4)) :=
  (W4_of_ne m ρ c main_arg4 (by decide)).trans (at3_arg4 m ρ c)
theorem at4_arg5 : W4 m ρ c (Proc.devRef .tc main_arg5) = (m ((c : Thread nD τ).loc main_arg5)) :=
  (W4_of_ne m ρ c main_arg5 (by decide)).trans (at3_arg5 m ρ c)

/-! ## After the second linear region -/

theorem at5_lin : W5 m ρ c (Proc.devRef .tc main_v54) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W5_arr m ρ c 2).trans ((Lin2.value (V4 m ρ) c).trans ?_)
  show Cert.ReferenceIdeal.Read.val_main_v0 (F := Ideal) (W4 m ρ c (Proc.devRef .tc main_v53)) (W4 m ρ c (Proc.devRef .tc main_arg4)) = _
  rw [at4_act, at4_arg4]
  exact (Cert.ReferenceIdeal.Agg.lin_second _ _ _ _ _).symm
theorem at5_src : W5 m ρ c (Proc.devRef .tc main_v3) = Cert.ReferenceIdeal.Read.val_main_v4 (F := Ideal) (m ((c : Thread nD τ).loc main_arg1)) :=
  (W5_of_ne m ρ c main_v3 (by decide)).trans (at4_src m ρ c)
theorem at5_dst : W5 m ρ c (Proc.devRef .tc main_v6) = Cert.ReferenceIdeal.Read.val_main_v7 (F := Ideal) (m ((c : Thread nD τ).loc main_arg1)) :=
  (W5_of_ne m ρ c main_v6 (by decide)).trans (at4_dst m ρ c)
theorem at5_norm : W5 m ρ c (Proc.devRef .tc main_v33) = Cert.ReferenceIdeal.Read.val_main_v34 (F := Ideal) (m ((c : Thread nD τ).loc main_arg1)) :=
  (W5_of_ne m ρ c main_v33 (by decide)).trans (at4_norm m ρ c)
theorem at5_arg5 : W5 m ρ c (Proc.devRef .tc main_arg5) = (m ((c : Thread nD τ).loc main_arg5)) :=
  (W5_of_ne m ρ c main_arg5 (by decide)).trans (at4_arg5 m ρ c)

/-! ## After the second aggregation -/

theorem at6_agg : W6 m ρ c (Proc.devRef .tc main_v72) = Cert.ReferenceIdeal.Read.val_main_v109 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (HostStages.third_agg (W5 m ρ c)).trans ?_
  rw [at5_lin, at5_src, at5_dst, at5_norm]
  exact (Cert.ReferenceIdeal.Agg.agg_second _ _ _ _ _).symm
theorem at6_arg5 : W6 m ρ c (Proc.devRef .tc main_arg5) = (m ((c : Thread nD τ).loc main_arg5)) :=
  (HostStages.hostOps3_keep_main_arg5 (W5 m ρ c)).trans (at5_arg5 m ρ c)

/-! ## After the last region: the result -/

/-- The result buffer's contents at the last boundary are the reference's last stage of the launch arguments. -/
theorem result : W7 m ρ c (Proc.devRef .tc main_v73)
    = Cert.ReferenceIdeal.Read.val_main_v112 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Bias3.value (V6 m ρ) c).trans ?_)
  show Bias3.hostSum (F := Ideal) (W6 m ρ c (Proc.devRef .tc main_v72)) (W6 m ρ c (Proc.devRef .tc main_arg5)) = _
  rw [at6_agg, at6_arg5]
  rfl

end Cert.KernelIdeal.Whole

end
-- ==== Proof.lean ====
/-
  A two-layer graph convolution: each layer multiplies the node features by a weight matrix, gathers the products at
  every edge's source (and at the node itself, for the self loop), scales each by the symmetric degree normalisation
  1/√(deg src · deg dst), sums into the edge's destination, and adds a bias; the first layer is followed by the
  maximum with zero.

  The kernel program runs the two matrix products and the two bias steps as tiled regions over blocks of 10000 nodes
  and everything else (the index vectors, the degrees, the gather, the scaling, the scatter-add) as host operations; the
  reference is host operations throughout and computes the normalisation once per layer. Over the extended reals:
  a block's product after the change of float format, into a zero accumulator, is the plain product's rows
  (Lin0, Lin2); the tiled bias steps are the host's broadcast-and-add, with or without the maximum (Bias1, Bias3);
  the host chains are the reference's own operations on equal operands (AggSpec, HostStages); so the kernel's result
  buffer ends at the reference's last stage of the launch arguments (KernelValue), which is what the reference's run
  leaves in its result. No step uses a law that needs finite inputs: the two sides are the same operations applied to
  equal values, so the precondition is never opened.

  The three frames are the generated ones (the reference's is its generated run with the result dropped); no rewrite
  was applied when the kernel was idealized, so there is nothing to preserve.
-/
import proofs.«163922_j9388798509588_1_alg».proof.Defs
import proofs.«163922_j9388798509588_1_alg».proof.Proof.Gen.Kernel
import proofs.«163922_j9388798509588_1_alg».proof.Proof.Gen.Kernel.Frame
import proofs.«163922_j9388798509588_1_alg».proof.Proof.Gen.KernelIdeal
import proofs.«163922_j9388798509588_1_alg».proof.Proof.Gen.KernelIdeal.Frame
import proofs.«163922_j9388798509588_1_alg».proof.Proof.Gen.ReferenceIdeal
import proofs.«163922_j9388798509588_1_alg».proof.Proof.Gen.ReferenceIdeal.Run
import proofs.«163922_j9388798509588_1_alg».proof.Proof.Gen.ReferenceIdeal.Read
import proofs.«163922_j9388798509588_1_alg».proof.Proof.Gen.Pre_finite_inputs
import proofs.«163922_j9388798509588_1_alg».proof.Proof.KernelRun
import proofs.«163922_j9388798509588_1_alg».proof.Proof.KernelValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run with its result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs, from memories agreeing on the six arguments, end with their result at the reference's last stage
    of those arguments: the kernel's by the walk through its segments, the reference's by its generated run. -/
theorem algebraic : Cert.algebraic_KernelIdeal_ReferenceIdeal := by
  intro m ρ m' ρ' _ hagree
  refine ⟨fun c => Cert.ReferenceIdeal.Read.val_main_v112 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Whole.result m ρ c), (h c).2⟩)
      (Cert.KernelIdeal.Named.run_named m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v112_eq, (hagree c).1, (hagree c).2.1, (hagree c).2.2.1, (hagree c).2.2.2.1,
      (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
